-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S256 .f32) (main_arg10 : FVec F S256x1 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128x128 .f32) (main_arg6 : FVec F S128 .f32) (main_arg7 : FVec F S128x128 .f32) (main_arg8 : FVec F S128x256 .f32) (main_arg9 : FVec F S256 .f32) (main_arg10 : FVec F S256x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x256 .f32) (main_arg9 : FVec F S256 .f32) (main_arg10 : FVec F S256x1 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S1x256 : Shape := ⟨2, ![1, 256]⟩
abbrev S1x1 : Shape := ⟨2, ![1, 1]⟩
abbrev S4000x1 : Shape := ⟨2, ![4000, 1]⟩
abbrev S4000x256 : Shape := ⟨2, ![4000, 256]⟩

abbrev nBuf : Space → Nat
  | .hbm => 67
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x256, .f32⟩
  | .hbm, ⟨65, _⟩ => ⟨S1x1, .f32⟩
  | .hbm, ⟨66, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x256, .f32⟩
  | .local _ .vmem, ⟨23, _⟩ => ⟨S1x256, .f32⟩
  | .local _ .vmem, ⟨24, _⟩ => ⟨S256x1, .f32⟩
  | .local _ .vmem, ⟨25, _⟩ => ⟨S1x1, .f32⟩
  | .local _ .vmem, ⟨26, _⟩ => ⟨S4000x1, .f32⟩
  | .local _ .vmem, ⟨27, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40_0 : Ref sig .tc := ⟨.hbm, 62, rfl⟩
abbrev main_v40_1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S256_S1x256 : S256.ShapeCasts S1x256
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x256_S4000x256_1_0_0_1_n_n_wf : DotDims.WF S4000x128 S128x256 S4000x256 [1] [0] [0] [1] [] []
  dot_S4000x256_S256x1_S4000x1_1_0_0_1_n_n_wf : DotDims.WF S4000x256 S256x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S256x1.size a
  hwx2_3 : ∀ i : grid2.Coords, EltTy.bits .f32 = 32 ∨ (Rect.block (s := S256x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40_1) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x256 : Shape := ⟨2, ![100000, 256]⟩
abbrev S1x256 : Shape := ⟨2, ![1, 256]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S100000x128, .f32⟩
  | .hbm, ⟨87, _⟩ => ⟨S100000x128, .f32⟩
  | .hbm, ⟨88, _⟩ => ⟨S100000x256, .f32⟩
  | .hbm, ⟨89, _⟩ => ⟨S1x256, .f32⟩
  | .hbm, ⟨90, _⟩ => ⟨S100000x256, .f32⟩
  | .hbm, ⟨91, _⟩ => ⟨S100000x256, .f32⟩
  | .hbm, ⟨92, _⟩ => ⟨S_, .f32⟩
  | .hbm, ⟨93, _⟩ => ⟨S100000x256, .f32⟩
  | .hbm, ⟨94, _⟩ => ⟨S100000x256, .f32⟩
  | .hbm, ⟨95, _⟩ => ⟨S100000x1, .f32⟩
  | .hbm, ⟨96, _⟩ => ⟨S1x1, .f32⟩
  | .hbm, ⟨97, _⟩ => ⟨S100000x1, .f32⟩
  | .hbm, ⟨98, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_call2_cst : Ref sig .tc := ⟨.hbm, 92, rfl⟩
abbrev main_call2_v0 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x256_S100000x256_1_0_0_1_n_n_wf : DotDims.WF S100000x128 S128x256 S100000x256 [1] [0] [0] [1] [] []
  dot_S100000x256_S256x1_S100000x1_1_0_0_1_n_n_wf : DotDims.WF S100000x256 S256x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Pay.lean ====
/-
  What each kernel body stores, read at one entry of the block, over the extended reals.

  Every body is a plain matrix product of a 4000-row block with a whole weight matrix (the narrowing to the
  16-bit format is the identity here), a bias row added to every row, and a maximum with zero. At entry (p, q):
    layer body      max ((Σₖ a(p,k)·wl(k,q) + Σₖ x(p,k)·wr(k,q)) + b(0,q), 0)   (and the same without the maximum)
    head body       Σⱼ max (Σₖ h(p,k)·w1(k,j) + b1(0,j), 0) · w2(j,q) + b2(0,q)
-/
import proofs.«151676_j36928128811710_1_alg».proof.Proof.Gen.KernelIdeal.Skeleton
import proofs.«151676_j36928128811710_1_alg».proof.Proof.LibDot
import Idealize.ShloMosaic.Lib.Pipeline.Value
import Idealize.ShloMosaic.Lib.ValueIdx
import Idealize.ShloMosaic.PureOps.Ideal.Laws

noncomputable section

open scoped BigOperators

namespace Cert.Pay

open Idealize.ShloMosaic Idealize.ShloMosaic.ValueIdx Cert.KernelIdeal Cert.KernelIdeal.Gen

/-- A row stored as a `[1, b]` array, broadcast down `a` rows, reads at `(p, q)` the row's entry `q`. -/
theorem bias_at {α : Type} {a b : ℕ} (x : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix2 (0 : Fin 1) q) := by
  rw [shapeCast_self]
  refine broadcastTo_apply x h2 (ix2 p q) (ix2 (0 : Fin 1) q) fun ax => ?_
  match ax with
  | ⟨0, _⟩ => rfl
  | ⟨1, _⟩ =>
    show q.val = if b = 1 then 0 else q.val
    split
    · have := q.isLt; omega
    · rfl

/-- The zero word is the real zero. -/
theorem zero_word : (Scalar.ofBits .f32 0x00000000#32 : Ideal .f32) = 0 := Ideal.ofBits_zero_f32

/-- The first layer's body at entry (p, q). -/
theorem pay0_at (x0 x1 : Vec Ideal S4000x128 .f32) (x2 x4 : Vec Ideal S128x128 .f32) (x3 : Vec Ideal S1x128 .f32)
    (p : Fin 4000) (q : Fin 128) :
    k0_pay1 (F := Ideal) x0 x1 x2 x4 x3 (ix2 p q)
      = max (((∑ k : Fin 128, x0 (ix2 p k) * x2 (ix2 k q)) + (∑ k : Fin 128, x1 (ix2 p k) * x4 (ix2 k q)))
          + x3 (ix2 (0 : Fin 1) q)) 0 := by
  unfold k0_pay1 Idealize.ShloMosaic.matmul
  rw [maximumf_apply, addf_apply, addf_apply, broadcast_apply, zero_word,
    Cert.LibDot.matmul_zero_at _ rfl rfl rfl rfl rfl rfl, Cert.LibDot.matmul_zero_at _ rfl rfl rfl rfl rfl rfl, bias_at]
  simp only [truncf_apply, shapeCast_self]

/-- The second layer's body before the maximum, at entry (p, q). -/
theorem pay1_at (x0 x1 : Vec Ideal S4000x128 .f32) (x2 x4 : Vec Ideal S128x128 .f32) (x3 : Vec Ideal S1x128 .f32)
    (p : Fin 4000) (q : Fin 128) :
    k1_pay1 (F := Ideal) x0 x1 x2 x4 x3 (ix2 p q)
      = ((∑ k : Fin 128, x0 (ix2 p k) * x2 (ix2 k q)) + (∑ k : Fin 128, x1 (ix2 p k) * x4 (ix2 k q)))
          + x3 (ix2 (0 : Fin 1) q) := by
  unfold k1_pay1 Idealize.ShloMosaic.matmul
  rw [addf_apply, addf_apply,
    Cert.LibDot.matmul_zero_at _ rfl rfl rfl rfl rfl rfl, Cert.LibDot.matmul_zero_at _ rfl rfl rfl rfl rfl rfl, bias_at]
  simp only [truncf_apply, shapeCast_self]

/-- The second layer's body after the maximum with zero, at entry (p, q). -/
theorem pay1r_at (x0 x1 : Vec Ideal S4000x128 .f32) (x2 x4 : Vec Ideal S128x128 .f32) (x3 : Vec Ideal S1x128 .f32)
    (p : Fin 4000) (q : Fin 128) :
    k1_pay2 (F := Ideal) x0 x1 x2 x4 x3 (ix2 p q)
      = max (((∑ k : Fin 128, x0 (ix2 p k) * x2 (ix2 k q)) + (∑ k : Fin 128, x1 (ix2 p k) * x4 (ix2 k q)))
          + x3 (ix2 (0 : Fin 1) q)) 0 := by
  unfold k1_pay2
  rw [maximumf_apply, broadcast_apply, zero_word, pay1_at]

/-- The head's body at entry (p, q): the hidden row (a product, a bias, a maximum with zero) times the last
    weight column, plus the last bias. -/
theorem pay2_at (x0 : Vec Ideal S4000x128 .f32) (x1 : Vec Ideal S128x256 .f32) (x2 : Vec Ideal S1x256 .f32)
    (x3 : Vec Ideal S256x1 .f32) (x4 : Vec Ideal S1x1 .f32) (p : Fin 4000) (q : Fin 1) :
    k2_pay1 (F := Ideal) x0 x1 x2 x3 x4 (ix2 p q)
      = (∑ j : Fin 256, max ((∑ k : Fin 128, x0 (ix2 p k) * x1 (ix2 k j)) + x2 (ix2 (0 : Fin 1) j)) 0 * x3 (ix2 j q))
          + x4 (ix2 (0 : Fin 1) q) := by
  unfold k2_pay1 Idealize.ShloMosaic.matmul
  rw [addf_apply, Cert.LibDot.matmul_zero_at _ rfl rfl rfl rfl rfl rfl, bias_at]
  refine congrArg (· + x4 (ix2 (0 : Fin 1) q)) (Finset.sum_congr rfl fun j _ => ?_)
  rw [truncf_apply, truncf_apply, maximumf_apply, addf_apply, broadcast_apply, zero_word,
    Cert.LibDot.matmul_zero_at _ rfl rfl rfl rfl rfl rfl, bias_at]
  simp only [truncf_apply, shapeCast_self]

end Cert.Pay

end
-- ==== Proof.Spec.lean ====
/-
  The network as functions of whole arrays, entry by entry, over the extended reals.

  A layer takes the aggregated neighbour features `a` and the node features `x` (both one row per node), two weight
  matrices and a bias row: at node r and channel c it is (Σₖ a(r,k)·wl(k,c) + Σₖ x(r,k)·wr(k,c)) + b(0,c). The
  head takes the node features, a weight matrix and bias row to 256 hidden channels, a maximum with zero, and a
  weight column and bias to one output channel.
-/
import Idealize.ShloMosaic.PureOps.Ideal
import Idealize.ShloMosaic.Lib.ValueIdx

noncomputable section

open scoped BigOperators

namespace Cert.Spec

open Idealize.ShloMosaic Idealize.ShloMosaic.ValueIdx

/-- Node-by-channel arrays of the three widths, the weight matrices and the bias rows. -/
abbrev Nodes128 : Type := (⟨2, ![100000, 128]⟩ : Shape).Idx → EReal
abbrev Nodes1 : Type := (⟨2, ![100000, 1]⟩ : Shape).Idx → EReal
abbrev Mat (a b : ℕ) : Type := (⟨2, ![a, b]⟩ : Shape).Idx → EReal

/-- One layer before its maximum with zero. -/
def layer (a x : Nodes128) (wl : Mat 128 128) (b : Mat 1 128) (wr : Mat 128 128) : Nodes128 := fun i =>
  ((∑ k : Fin 128, a (ix2 (i 0) k) * wl (ix2 k (i 1))) + (∑ k : Fin 128, x (ix2 (i 0) k) * wr (ix2 k (i 1))))
    + b (ix2 (0 : Fin 1) (i 1))

/-- The maximum with zero, entry by entry. -/
def relu (y : Nodes128) : Nodes128 := fun i => max (y i) 0

/-- The head: hidden row, maximum with zero, output column. -/
def head (h : Nodes128) (w1 : Mat 128 256) (b1 : Mat 1 256) (w2 : Mat 256 1) (b2 : Mat 1 1) : Nodes1 := fun i =>
  (∑ j : Fin 256, max ((∑ k : Fin 128, h (ix2 (i 0) k) * w1 (ix2 k j)) + b1 (ix2 (0 : Fin 1) j)) 0 * w2 (ix2 j (i 1)))
    + b2 (ix2 (0 : Fin 1) (i 1))

theorem layer_at (a x : Nodes128) (wl : Mat 128 128) (b : Mat 1 128) (wr : Mat 128 128) (r : Fin 100000) (q : Fin 128) :
    layer a x wl b wr (ix2 r q)
      = ((∑ k : Fin 128, a (ix2 r k) * wl (ix2 k q)) + (∑ k : Fin 128, x (ix2 r k) * wr (ix2 k q))) + b (ix2 (0 : Fin 1) q) := rfl

theorem relu_at (y : Nodes128) (i : (⟨2, ![100000, 128]⟩ : Shape).Idx) : relu y i = max (y i) 0 := rfl

theorem head_at (h : Nodes128) (w1 : Mat 128 256) (b1 : Mat 1 256) (w2 : Mat 256 1) (b2 : Mat 1 1) (r : Fin 100000) (q : Fin 1) :
    head h w1 b1 w2 b2 (ix2 r q)
      = (∑ j : Fin 256, max ((∑ k : Fin 128, h (ix2 r k) * w1 (ix2 k j)) + b1 (ix2 (0 : Fin 1) j)) 0 * w2 (ix2 j q))
          + b2 (ix2 (0 : Fin 1) q) := rfl

end Cert.Spec

end
-- ==== Proof.Block.lean ====
/-
  A body's stored block against the whole-array functions: when the two row-blocked inputs hold, in their row p,
  row r of their arrays, and the unblocked inputs hold their whole arrays, the body's entry (p, q) is the layer's
  (or the head's) entry (r, q).
-/
import proofs.«151676_j36928128811710_1_alg».proof.Proof.Pay
import proofs.«151676_j36928128811710_1_alg».proof.Proof.Spec

noncomputable section

open scoped BigOperators

namespace Cert.Block

open Idealize.ShloMosaic Idealize.ShloMosaic.ValueIdx Cert.KernelIdeal Cert.KernelIdeal.Gen Cert.Spec

theorem layer0_block (a x : Nodes128) (wl : Mat 128 128) (b : Mat 1 128) (wr : Mat 128 128)
    (x0 x1 : Vec Ideal S4000x128 .f32) (x2 x4 : Vec Ideal S128x128 .f32) (x3 : Vec Ideal S1x128 .f32)
    (r : Fin 100000) (p : Fin 4000) (q : Fin 128)
    (h0 : ∀ k, x0 (ix2 p k) = a (ix2 r k)) (h1 : ∀ k, x1 (ix2 p k) = x (ix2 r k))
    (h2 : x2 = wl) (h3 : x3 = b) (h4 : x4 = wr) :
    k0_pay1 (F := Ideal) x0 x1 x2 x4 x3 (ix2 p q) = relu (layer a x wl b wr) (ix2 r q) := by
  subst h2 h3 h4
  rw [Cert.Pay.pay0_at, relu_at, layer_at]
  simp only [h0, h1]

theorem layer1_block (a x : Nodes128) (wl : Mat 128 128) (b : Mat 1 128) (wr : Mat 128 128)
    (x0 x1 : Vec Ideal S4000x128 .f32) (x2 x4 : Vec Ideal S128x128 .f32) (x3 : Vec Ideal S1x128 .f32)
    (r : Fin 100000) (p : Fin 4000) (q : Fin 128)
    (h0 : ∀ k, x0 (ix2 p k) = a (ix2 r k)) (h1 : ∀ k, x1 (ix2 p k) = x (ix2 r k))
    (h2 : x2 = wl) (h3 : x3 = b) (h4 : x4 = wr) :
    k1_pay1 (F := Ideal) x0 x1 x2 x4 x3 (ix2 p q) = layer a x wl b wr (ix2 r q) := by
  subst h2 h3 h4
  rw [Cert.Pay.pay1_at, layer_at]
  simp only [h0, h1]

theorem layer1r_block (a x : Nodes128) (wl : Mat 128 128) (b : Mat 1 128) (wr : Mat 128 128)
    (x0 x1 : Vec Ideal S4000x128 .f32) (x2 x4 : Vec Ideal S128x128 .f32) (x3 : Vec Ideal S1x128 .f32)
    (r : Fin 100000) (p : Fin 4000) (q : Fin 128)
    (h0 : ∀ k, x0 (ix2 p k) = a (ix2 r k)) (h1 : ∀ k, x1 (ix2 p k) = x (ix2 r k))
    (h2 : x2 = wl) (h3 : x3 = b) (h4 : x4 = wr) :
    k1_pay2 (F := Ideal) x0 x1 x2 x4 x3 (ix2 p q) = relu (layer a x wl b wr) (ix2 r q) := by
  subst h2 h3 h4
  rw [Cert.Pay.pay1r_at, relu_at, layer_at]
  simp only [h0, h1]

theorem head_block (h : Nodes128) (w1 : Mat 128 256) (b1 : Mat 1 256) (w2 : Mat 256 1) (b2 : Mat 1 1)
    (x0 : Vec Ideal S4000x128 .f32) (x1 : Vec Ideal S128x256 .f32) (x2 : Vec Ideal S1x256 .f32)
    (x3 : Vec Ideal S256x1 .f32) (x4 : Vec Ideal S1x1 .f32)
    (r : Fin 100000) (p : Fin 4000) (q : Fin 1)
    (h0 : ∀ k, x0 (ix2 p k) = h (ix2 r k)) (h1 : x1 = w1) (h2 : x2 = b1) (h3 : x3 = w2) (h4 : x4 = b2) :
    k2_pay1 (F := Ideal) x0 x1 x2 x3 x4 (ix2 p q) = head h w1 b1 w2 b2 (ix2 r q) := by
  subst h1 h2 h3 h4
  rw [Cert.Pay.pay2_at, head_at]
  simp only [h0]

end Cert.Block

end
-- ==== Proof.Reg0.lean ====
/-
  The first layer's region: the array its output window's blocks leave behind.

  The region runs over 25 grid points; point t reads rows 4000·t … 4000·t + 3999 of the aggregated features and of
  the node features, the whole of the two weight matrices and of the bias row, and writes the same rows of the
  output. So the output array ends as the layer (with its maximum with zero) of the arrays the region was
  entered with, whatever those are.
-/
import proofs.«151676_j36928128811710_1_alg».proof.Proof.Gen.KernelIdeal.Frame
import proofs.«151676_j36928128811710_1_alg».proof.Proof.Block
import Idealize.ShloMosaic.Lib.Pipeline.Value

set_option maxRecDepth 16384

noncomputable section

open scoped BigOperators

namespace Cert.Reg0

open Idealize.ShloMosaic Idealize.ShloMosaic.ValueIdx Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The layer of the arrays the region is entered with. -/
def G (c : Dev nD) : Nodes128 :=
  relu (layer (V c main_v24) (V c main_arg0) (V c main_arg2) (V c main_v25) (V c main_arg4))

/-- The printed index maps over the grid: the row-blocked windows sit at block row t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem rows_lt (t : Fin cfg0.N) (p : Fin 4000) : t.val * 4000 + p.val < 100000 := by
  have ht : t.val < 25 := t.isLt
  have hp := p.isLt
  omega

/-- Row p of the aggregated-features block at point t is row 4000·t + p of the array. -/
theorem blk_0 (c : Dev nD) (t : Fin cfg0.N) (p : Fin 4000) (k : Fin 128) :
    iblk0 V c 0 t (ix2 p k) = V c main_v24 (ix2 ⟨t.val * 4000 + p.val, rows_lt t p⟩ k) := by
  show V c main_v24 (((cfg0.win 0).blk t).view.emb (ix2 p k)) = _
  refine congrArg (V c main_v24) (funext fun a => Fin.ext ?_)
  obtain ⟨e0, e1, -⟩ := idx_facts t
  match a with
  | ⟨0, _⟩ => show win0_0.index t (0 : Fin 2) * 4000 + 1 * p.val = t.val * 4000 + p.val; omega
  | ⟨1, _⟩ => show win0_0.index t (1 : Fin 2) * 128 + 1 * k.val = k.val; omega

/-- Row p of the node-features block at point t is row 4000·t + p of the array. -/
theorem blk_1 (c : Dev nD) (t : Fin cfg0.N) (p : Fin 4000) (k : Fin 128) :
    iblk0 V c 1 t (ix2 p k) = V c main_arg0 (ix2 ⟨t.val * 4000 + p.val, rows_lt t p⟩ k) := by
  show V c main_arg0 (((cfg0.win 1).blk t).view.emb (ix2 p k)) = _
  refine congrArg (V c main_arg0) (funext fun a => Fin.ext ?_)
  obtain ⟨-, -, e0, e1, -⟩ := idx_facts t
  match a with
  | ⟨0, _⟩ => show win0_1.index t (0 : Fin 2) * 4000 + 1 * p.val = t.val * 4000 + p.val; omega
  | ⟨1, _⟩ => show win0_1.index t (1 : Fin 2) * 128 + 1 * k.val = k.val; omega

/-- The unblocked windows hold their whole arrays at every point. -/
theorem blk_2 (c : Dev nD) (t : Fin cfg0.N) : iblk0 V c 2 t = V c main_arg2 := by
  funext j
  show V c main_arg2 (((cfg0.win 2).blk t).view.emb j) = _
  refine congrArg (V c main_arg2) (funext fun a => Fin.ext ?_)
  obtain ⟨-, -, -, -, e0, e1, -⟩ := idx_facts t
  match a with
  | ⟨0, _⟩ => show win0_2.index t (0 : Fin 2) * 128 + 1 * (j 0).val = (j 0).val; omega
  | ⟨1, _⟩ => show win0_2.index t (1 : Fin 2) * 128 + 1 * (j 1).val = (j 1).val; omega

theorem blk_3 (c : Dev nD) (t : Fin cfg0.N) : iblk0 V c 3 t = V c main_v25 := by
  funext j
  show V c main_v25 (((cfg0.win 3).blk t).view.emb j) = _
  refine congrArg (V c main_v25) (funext fun a => Fin.ext ?_)
  obtain ⟨-, -, -, -, -, -, e0, e1, -⟩ := idx_facts t
  match a with
  | ⟨0, _⟩ => show win0_3.index t (0 : Fin 2) * 1 + 1 * (j 0).val = (j 0).val; omega
  | ⟨1, _⟩ => show win0_3.index t (1 : Fin 2) * 128 + 1 * (j 1).val = (j 1).val; omega

theorem blk_4 (c : Dev nD) (t : Fin cfg0.N) : iblk0 V c 4 t = V c main_arg4 := by
  funext j
  show V c main_arg4 (((cfg0.win 4).blk t).view.emb j) = _
  refine congrArg (V c main_arg4) (funext fun a => Fin.ext ?_)
  obtain ⟨-, -, -, -, -, -, -, -, e0, e1, -⟩ := idx_facts t
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Where entry (p, q) of the output block at point t lies in the output array. -/
theorem emb_5 (t : Fin cfg0.N) (p : Fin 4000) (q : Fin 128) :
    ((cfg0.win 5).blk t).view.emb (ix2 p q) = ix2 ⟨t.val * 4000 + p.val, rows_lt t p⟩ q := by
  funext a; apply Fin.ext
  obtain ⟨-, -, -, -, -, -, -, -, -, -, e0, e1⟩ := idx_facts t
  match a with
  | ⟨0, _⟩ => show win0_5.index t (0 : Fin 2) * 4000 + 1 * p.val = t.val * 4000 + p.val; omega
  | ⟨1, _⟩ => show win0_5.index t (1 : Fin 2) * 128 + 1 * q.val = q.val; omega

/-- What point t writes back is block t of the layer of the entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero origin]
  simp only [View.ld_unit_zero (S := S4000x128) origin, View.ld_unit_zero (S := S128x128) origin,
    View.ld_unit_zero (S := S1x128) origin]
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  rw [emb_5 t p q]
  exact Cert.Block.layer0_block (V c main_v24) (V c main_arg0) (V c main_arg2) (V c main_v25) (V c main_arg4)
    (iblk0 V c 0 t) (iblk0 V c 1 t) (iblk0 V c 2 t) (iblk0 V c 4 t) (iblk0 V c 3 t) ⟨t.val * 4000 + p.val, rows_lt t p⟩ p q
    (fun k => blk_0 V c t p k) (fun k => blk_1 V c t p k) (blk_2 V c t) (blk_3 V c t) (blk_4 V c t)

/-- An index of the output array is in point t's block iff each coordinate is in the block's range. -/
theorem mem_blk (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v26).slice (win0_5.rect t)).set ↔ _
  rw [View.set_slice_whole, Rect.mem_set_unit]
  exact Iff.rfl

/-- The 25 blocks of 4000 rows cover the 100000 rows: row r is in block r / 4000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [mem_blk]
  obtain ⟨-, -, -, -, -, -, -, -, -, -, e0, e1⟩ := idx_facts ⟨(i 0).val / 4000, by rw [hN]; omega⟩
  intro a
  match a with
  | ⟨0, _⟩ =>
    show win0_5.index _ (0 : Fin 2) * 4000 ≤ (i 0).val ∧ (i 0).val < win0_5.index _ (0 : Fin 2) * 4000 + 4000
    rw [e0]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [e1]; omega

/-- The output array after the region. -/
theorem final (c : Dev nD) : (dat0 V c).arrAt 5 cfg0.N = G V c :=
  (dat0 V c).arrAt_eq_of_cover 5 _ (fun t _ => flushed_eq V c t) cover

end Cert.Reg0

end
-- ==== Proof.Reg1.lean ====
/-
  The second layer's region: the two arrays its output windows' blocks leave behind.

  As in the first layer's region, point t of 25 reads rows 4000·t … 4000·t + 3999 of the aggregated features and
  of the first layer's output, the whole of the two weight matrices and of the bias row; it writes those rows of
  the layer before its maximum with zero into the first output and of the layer after it into the second.
-/
import proofs.«151676_j36928128811710_1_alg».proof.Proof.Gen.KernelIdeal.Frame
import proofs.«151676_j36928128811710_1_alg».proof.Proof.Block
import Idealize.ShloMosaic.Lib.Pipeline.Value

set_option maxRecDepth 16384

noncomputable section

open scoped BigOperators

namespace Cert.Reg1

open Idealize.ShloMosaic Idealize.ShloMosaic.ValueIdx Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The layer of the arrays the region is entered with, before its maximum with zero. -/
def G (c : Dev nD) : Nodes128 :=
  layer (V c main_v38) (V c main_v26) (V c main_arg5) (V c main_v39) (V c main_arg7)

/-- The printed index maps over the grid: the row-blocked windows sit at block row t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem rows_lt (t : Fin cfg1.N) (p : Fin 4000) : t.val * 4000 + p.val < 100000 := by
  have ht : t.val < 25 := t.isLt
  have hp := p.isLt
  omega

/-- Row p of the aggregated-features block at point t is row 4000·t + p of the array. -/
theorem blk_0 (c : Dev nD) (t : Fin cfg1.N) (p : Fin 4000) (k : Fin 128) :
    iblk1 V c 0 t (ix2 p k) = V c main_v38 (ix2 ⟨t.val * 4000 + p.val, rows_lt t p⟩ k) := by
  show V c main_v38 (((cfg1.win 0).blk t).view.emb (ix2 p k)) = _
  refine congrArg (V c main_v38) (funext fun a => Fin.ext ?_)
  obtain ⟨e0, e1, -⟩ := idx_facts t
  match a with
  | ⟨0, _⟩ => show win1_0.index t (0 : Fin 2) * 4000 + 1 * p.val = t.val * 4000 + p.val; omega
  | ⟨1, _⟩ => show win1_0.index t (1 : Fin 2) * 128 + 1 * k.val = k.val; omega

/-- Row p of the first layer's output block at point t is row 4000·t + p of the array. -/
theorem blk_1 (c : Dev nD) (t : Fin cfg1.N) (p : Fin 4000) (k : Fin 128) :
    iblk1 V c 1 t (ix2 p k) = V c main_v26 (ix2 ⟨t.val * 4000 + p.val, rows_lt t p⟩ k) := by
  show V c main_v26 (((cfg1.win 1).blk t).view.emb (ix2 p k)) = _
  refine congrArg (V c main_v26) (funext fun a => Fin.ext ?_)
  obtain ⟨-, -, e0, e1, -⟩ := idx_facts t
  match a with
  | ⟨0, _⟩ => show win1_1.index t (0 : Fin 2) * 4000 + 1 * p.val = t.val * 4000 + p.val; omega
  | ⟨1, _⟩ => show win1_1.index t (1 : Fin 2) * 128 + 1 * k.val = k.val; omega

/-- The unblocked windows hold their whole arrays at every point. -/
theorem blk_2 (c : Dev nD) (t : Fin cfg1.N) : iblk1 V c 2 t = V c main_arg5 := by
  funext j
  show V c main_arg5 (((cfg1.win 2).blk t).view.emb j) = _
  refine congrArg (V c main_arg5) (funext fun a => Fin.ext ?_)
  obtain ⟨-, -, -, -, e0, e1, -⟩ := idx_facts t
  match a with
  | ⟨0, _⟩ => show win1_2.index t (0 : Fin 2) * 128 + 1 * (j 0).val = (j 0).val; omega
  | ⟨1, _⟩ => show win1_2.index t (1 : Fin 2) * 128 + 1 * (j 1).val = (j 1).val; omega

theorem blk_3 (c : Dev nD) (t : Fin cfg1.N) : iblk1 V c 3 t = V c main_v39 := by
  funext j
  show V c main_v39 (((cfg1.win 3).blk t).view.emb j) = _
  refine congrArg (V c main_v39) (funext fun a => Fin.ext ?_)
  obtain ⟨-, -, -, -, -, -, e0, e1, -⟩ := idx_facts t
  match a with
  | ⟨0, _⟩ => show win1_3.index t (0 : Fin 2) * 1 + 1 * (j 0).val = (j 0).val; omega
  | ⟨1, _⟩ => show win1_3.index t (1 : Fin 2) * 128 + 1 * (j 1).val = (j 1).val; omega

theorem blk_4 (c : Dev nD) (t : Fin cfg1.N) : iblk1 V c 4 t = V c main_arg7 := by
  funext j
  show V c main_arg7 (((cfg1.win 4).blk t).view.emb j) = _
  refine congrArg (V c main_arg7) (funext fun a => Fin.ext ?_)
  obtain ⟨-, -, -, -, -, -, -, -, e0, e1, -⟩ := idx_facts t
  match a with
  | ⟨0, _⟩ => show win1_4.index t (0 : Fin 2) * 128 + 1 * (j 0).val = (j 0).val; omega
  | ⟨1, _⟩ => show win1_4.index t (1 : Fin 2) * 128 + 1 * (j 1).val = (j 1).val; omega

/-- Where entry (p, q) of either output block at point t lies in its array. -/
theorem emb_5 (t : Fin cfg1.N) (p : Fin 4000) (q : Fin 128) :
    ((cfg1.win 5).blk t).view.emb (ix2 p q) = ix2 ⟨t.val * 4000 + p.val, rows_lt t p⟩ q := by
  funext a; apply Fin.ext
  obtain ⟨-, -, -, -, -, -, -, -, -, -, e0, e1, -⟩ := idx_facts t
  match a with
  | ⟨0, _⟩ => show win1_5.index t (0 : Fin 2) * 4000 + 1 * p.val = t.val * 4000 + p.val; omega
  | ⟨1, _⟩ => show win1_5.index t (1 : Fin 2) * 128 + 1 * q.val = q.val; omega

theorem emb_6 (t : Fin cfg1.N) (p : Fin 4000) (q : Fin 128) :
    ((cfg1.win 6).blk t).view.emb (ix2 p q) = ix2 ⟨t.val * 4000 + p.val, rows_lt t p⟩ q := by
  funext a; apply Fin.ext
  obtain ⟨-, -, -, -, -, -, -, -, -, -, -, -, e0, e1⟩ := idx_facts t
  match a with
  | ⟨0, _⟩ => show win1_6.index t (0 : Fin 2) * 4000 + 1 * p.val = t.val * 4000 + p.val; omega
  | ⟨1, _⟩ => show win1_6.index t (1 : Fin 2) * 128 + 1 * q.val = q.val; omega

/-- What point t writes back into the first output is block t of the layer of the entry arrays. -/
theorem flushed5_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero origin]
  simp only [View.ld_unit_zero (S := S4000x128) origin, View.ld_unit_zero (S := S128x128) origin,
    View.ld_unit_zero (S := S1x128) origin]
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = G V c (((cfg1.win 5).blk t).view.emb (ix2 p q))
  rw [emb_5 t p q]
  exact Cert.Block.layer1_block (V c main_v38) (V c main_v26) (V c main_arg5) (V c main_v39) (V c main_arg7)
    (iblk1 V c 0 t) (iblk1 V c 1 t) (iblk1 V c 2 t) (iblk1 V c 4 t) (iblk1 V c 3 t) ⟨t.val * 4000 + p.val, rows_lt t p⟩ p q
    (fun k => blk_0 V c t p k) (fun k => blk_1 V c t p k) (blk_2 V c t) (blk_3 V c t) (blk_4 V c t)

/-- What point t writes back into the second output is block t of the layer after its maximum with zero. -/
theorem flushed6_eq (c : Dev nD) (t : Fin cfg1.N) :
    (dat1 V c).flushed 6 t = ((cfg1.win 6).blk t).view.read (Elt Ideal) (relu (G V c)) := by
  show (cfg1.win 6).cut (grid1.coords t) ((dat1 V c).after 6 t) = _
  rw [after1_6]
  unfold out1_6
  rw [View.canon_unit_zero origin]
  simp only [View.ld_unit_zero (S := S4000x128) origin, View.ld_unit_zero (S := S128x128) origin,
    View.ld_unit_zero (S := S1x128) origin]
  funext j
  obtain ⟨p, q, rfl⟩ : ∃ (p : Fin 4000) (q : Fin 128), j = ix2 p q := ⟨j 0, j 1, eq_ix2 j⟩
  show k1_pay2 (F := Ideal) (iblk1 V c 0 t) (iblk1 V c 1 t) (iblk1 V c 2 t) (iblk1 V c 4 t) (iblk1 V c 3 t) (ix2 p q)
    = relu (G V c) (((cfg1.win 6).blk t).view.emb (ix2 p q))
  rw [emb_6 t p q]
  exact Cert.Block.layer1r_block (V c main_v38) (V c main_v26) (V c main_arg5) (V c main_v39) (V c main_arg7)
    (iblk1 V c 0 t) (iblk1 V c 1 t) (iblk1 V c 2 t) (iblk1 V c 4 t) (iblk1 V c 3 t) ⟨t.val * 4000 + p.val, rows_lt t p⟩ p q
    (fun k => blk_0 V c t p k) (fun k => blk_1 V c t p k) (blk_2 V c t) (blk_3 V c t) (blk_4 V c t)

/-- An index of an output array is in point t's block iff each coordinate is in the block's range. -/
theorem mem_blk5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v40_0).slice (win1_5.rect t)).set ↔ _
  rw [View.set_slice_whole, Rect.mem_set_unit]
  exact Iff.rfl

theorem mem_blk6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v40_1).slice (win1_6.rect t)).set ↔ _
  rw [View.set_slice_whole, Rect.mem_set_unit]
  exact Iff.rfl

/-- The 25 blocks of 4000 rows cover the 100000 rows of each output: row r is in block r / 4000. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_5 _, ?_⟩
  rw [mem_blk5]
  obtain ⟨-, -, -, -, -, -, -, -, -, -, e0, e1, -⟩ := idx_facts ⟨(i 0).val / 4000, by rw [hN]; omega⟩
  intro a
  match a with
  | ⟨0, _⟩ =>
    show win1_5.index _ (0 : Fin 2) * 4000 ≤ (i 0).val ∧ (i 0).val < win1_5.index _ (0 : Fin 2) * 4000 + 4000
    rw [e0]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [e1]; omega

theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_6 _, ?_⟩
  rw [mem_blk6]
  obtain ⟨-, -, -, -, -, -, -, -, -, -, -, -, e0, e1⟩ := idx_facts ⟨(i 0).val / 4000, by rw [hN]; omega⟩
  intro a
  match a with
  | ⟨0, _⟩ =>
    show win1_6.index _ (0 : Fin 2) * 4000 ≤ (i 0).val ∧ (i 0).val < win1_6.index _ (0 : Fin 2) * 4000 + 4000
    rw [e0]; show (i 0).val / 4000 * 4000 ≤ (i 0).val ∧ (i 0).val < (i 0).val / 4000 * 4000 + 4000; omega
  | ⟨1, _⟩ =>
    show win1_6.index _ (1 : Fin 2) * 128 ≤ (i 1).val ∧ (i 1).val < win1_6.index _ (1 : Fin 2) * 128 + 128
    rw [e1]; omega

/-- The two output arrays after the region. -/
theorem final5 (c : Dev nD) : (dat1 V c).arrAt 5 cfg1.N = G V c :=
  (dat1 V c).arrAt_eq_of_cover 5 _ (fun t _ => flushed5_eq V c t) cover5

theorem final6 (c : Dev nD) : (dat1 V c).arrAt 6 cfg1.N = relu (G V c) :=
  (dat1 V c).arrAt_eq_of_cover 6 _ (fun t _ => flushed6_eq V c t) cover6

end Cert.Reg1

end
-- ==== Proof.Reg2.lean ====
/-
  The head's region: the array its output window's blocks leave behind.

  Point t of 25 reads rows 4000·t … 4000·t + 3999 of the second layer's output (after its maximum with zero) and
  the whole of the two weight matrices and the two biases, and writes those rows of the one-column result.
-/
import proofs.«151676_j36928128811710_1_alg».proof.Proof.Gen.KernelIdeal.Frame
import proofs.«151676_j36928128811710_1_alg».proof.Proof.Block
import Idealize.ShloMosaic.Lib.Pipeline.Value

set_option maxRecDepth 16384

noncomputable section

open scoped BigOperators

namespace Cert.Reg2

open Idealize.ShloMosaic Idealize.ShloMosaic.ValueIdx Idealize.ShloMosaic.TcCoe Idealize.SL.Sem
open Cert.KernelIdeal Cert.KernelIdeal.Gen Cert.Spec
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The head of the arrays the region is entered with. -/
def G (c : Dev nD) : Nodes1 :=
  head (V c main_v40_1) (V c main_arg8) (V c main_v41) (V c main_arg10) (V c main_v42)

/-- The printed index maps over the grid: the row-blocked windows sit at block row t, the others at block 0. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem rows_lt (t : Fin cfg2.N) (p : Fin 4000) : t.val * 4000 + p.val < 100000 := by
  have ht : t.val < 25 := t.isLt
  have hp := p.isLt
  omega

/-- Row p of the features block at point t is row 4000·t + p of the array. -/
theorem blk_0 (c : Dev nD) (t : Fin cfg2.N) (p : Fin 4000) (k : Fin 128) :
    iblk2 V c 0 t (ix2 p k) = V c main_v40_1 (ix2 ⟨t.val * 4000 + p.val, rows_lt t p⟩ k) := by
  show V c main_v40_1 (((cfg2.win 0).blk t).view.emb (ix2 p k)) = _
  refine congrArg (V c main_v40_1) (funext fun a => Fin.ext ?_)
  obtain ⟨e0, e1, -⟩ := idx_facts t
  match a with
  | ⟨0, _⟩ => show win2_0.index t (0 : Fin 2) * 4000 + 1 * p.val = t.val * 4000 + p.val; omega
  | ⟨1, _⟩ => show win2_0.index t (1 : Fin 2) * 128 + 1 * k.val = k.val; omega

/-- The unblocked windows hold their whole arrays at every point. -/
theorem blk_1 (c : Dev nD) (t : Fin cfg2.N) : iblk2 V c 1 t = V c main_arg8 := by
  funext j
  show V c main_arg8 (((cfg2.win 1).blk t).view.emb j) = _
  refine congrArg (V c main_arg8) (funext fun a => Fin.ext ?_)
  obtain ⟨-, -, e0, e1, -⟩ := idx_facts t
  match a with
  | ⟨0, _⟩ => show win2_1.index t (0 : Fin 2) * 128 + 1 * (j 0).val = (j 0).val; omega
  | ⟨1, _⟩ => show win2_1.index t (1 : Fin 2) * 256 + 1 * (j 1).val = (j 1).val; omega

theorem blk_2 (c : Dev nD) (t : Fin cfg2.N) : iblk2 V c 2 t = V c main_v41 := by
  funext j
  show V c main_v41 (((cfg2.win 2).blk t).view.emb j) = _
  refine congrArg (V c main_v41) (funext fun a => Fin.ext ?_)
  obtain ⟨-, -, -, -, e0, e1, -⟩ := idx_facts t
  match a with
  | ⟨0, _⟩ => show win2_2.index t (0 : Fin 2) * 1 + 1 * (j 0).val = (j 0).val; omega
  | ⟨1, _⟩ => show win2_2.index t (1 : Fin 2) * 256 + 1 * (j 1).val = (j 1).val; omega

theorem blk_3 (c : Dev nD) (t : Fin cfg2.N) : iblk2 V c 3 t = V c main_arg10 := by
  funext j
  show V c main_arg10 (((cfg2.win 3).blk t).view.emb j) = _
  refine congrArg (V c main_arg10) (funext fun a => Fin.ext ?_)
  obtain ⟨-, -, -, -, -, -, e0, e1, -⟩ := idx_facts t
  match a with
  | ⟨0, _⟩ => show win2_3.index t (0 : Fin 2) * 256 + 1 * (j 0).val = (j 0).val; omega
  | ⟨1, _⟩ => show win2_3.index t (1 : Fin 2) * 1 + 1 * (j 1).val = (j 1).val; omega

theorem blk_4 (c : Dev nD) (t : Fin cfg2.N) : iblk2 V c 4 t = V c main_v42 := by
  funext j
  show V c main_v42 (((cfg2.win 4).blk t).view.emb j) = _
  refine congrArg (V c main_v42) (funext fun a => Fin.ext ?_)
  obtain ⟨-, -, -, -, -, -, -, -, e0, e1, -⟩ := idx_facts t
  match a with
  | ⟨0, _⟩ => show win2_4.index t (0 : Fin 2) * 1 + 1 * (j 0).val = (j 0).val; omega
  | ⟨1, _⟩ => show win2_4.index t (1 : Fin 2) * 1 + 1 * (j 1).val = (j 1).val; omega

/-- Where entry (p, q) of the output block at point t lies in the output array. -/
theorem emb_5 (t : Fin cfg2.N) (p : Fin 4000) (q : Fin 1) :
    ((cfg2.win 5).blk t).view.emb (ix2 p q) = ix2 ⟨t.val * 4000 + p.val, rows_lt t p⟩ q := by
  funext a; apply Fin.ext
  obtain ⟨-, -, -, -, -, -, -, -, -, -, e0, e1⟩ := idx_facts t
  match a with
  | ⟨0, _⟩ => show win2_5.index t (0 : Fin 2) * 4000 + 1 * p.val = t.val * 4000 + p.val; omega
  | ⟨1, _⟩ => show win2_5.index t (1 : Fin 2) * 1 + 1 * q.val = q.val; omega

/-- What point t writes back is block t of the head of the entry arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero origin]
  simp only [View.ld_unit_zero (S := S4000x128) origin, View.ld_unit_zero (S := S128x256) origin,
    View.ld_unit_zero (S := S1x256) origin, View.ld_unit_zero (S := S256x1) origin, View.ld_unit_zero (S := S1x1) origin]
  funext j
  obtain ⟨p, q, rfl⟩ : ∃ (p : Fin 4000) (q : Fin 1), j = ix2 p q := ⟨j 0, j 1, eq_ix2 j⟩
  show k2_pay1 (F := Ideal) (iblk2 V c 0 t) (iblk2 V c 1 t) (iblk2 V c 2 t) (iblk2 V c 3 t) (iblk2 V c 4 t) (ix2 p q)
    = G V c (((cfg2.win 5).blk t).view.emb (ix2 p q))
  rw [emb_5 t p q]
  exact Cert.Block.head_block (V c main_v40_1) (V c main_arg8) (V c main_v41) (V c main_arg10) (V c main_v42)
    (iblk2 V c 0 t) (iblk2 V c 1 t) (iblk2 V c 2 t) (iblk2 V c 3 t) (iblk2 V c 4 t) ⟨t.val * 4000 + p.val, rows_lt t p⟩ p q
    (fun k => blk_0 V c t p k) (blk_1 V c t) (blk_2 V c t) (blk_3 V c t) (blk_4 V c t)

/-- An index of the output array is in point t's block iff each coordinate is in the block's range. -/
theorem mem_blk (t : Fin cfg2.N) (i : S100000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v43).slice (win2_5.rect t)).set ↔ _
  rw [View.set_slice_whole, Rect.mem_set_unit]
  exact Iff.rfl

/-- The 25 blocks of 4000 rows cover the 100000 rows: row r is in block r / 4000. -/
theorem cover (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 25 := N_2
  refine ⟨⟨(i 0).val / 4000, by rw [hN]; omega⟩, flush2_5 _, ?_⟩
  rw [mem_blk]
  obtain ⟨-, -, -, -, -, -, -, -, -, -, e0, e1⟩ := idx_facts ⟨(i 0).val / 4000, by rw [hN]; omega⟩
  intro a
  match a with
  | ⟨0, _⟩ =>
    show win2_5.index _ (0 : Fin 2) * 4000 ≤ (i 0).val ∧ (i 0).val < win2_5.index _ (0 : Fin 2) * 4000 + 4000
    rw [e0]; show (i 0).val / 4000 * 4000 ≤ (i 0).val ∧ (i 0).val < (i 0).val / 4000 * 4000 + 4000; omega
  | ⟨1, _⟩ =>
    show win2_5.index _ (1 : Fin 2) * 1 ≤ (i 1).val ∧ (i 1).val < win2_5.index _ (1 : Fin 2) * 1 + 1
    rw [e1]; omega

/-- The output array after the region. -/
theorem final (c : Dev nD) : (dat2 V c).arrAt 5 cfg2.N = G V c :=
  (dat2 V c).arrAt_eq_of_cover 5 _ (fun t _ => flushed_eq V c t) cover

end Cert.Reg2

end
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.HostTerms.lean ====
/-
  The programs' host-side terms as named functions, and the laws that join the two programs.

  Both programs aggregate neighbour features the same way — gather the source rows, add them into the destination
  rows — and count each node's incoming edges the same way; those two chains are carried here as opaque functions
  `aggr` and `degm` (the count already floored at one). They differ in how they divide: one program multiplies
  by the reciprocal 1 / d, the other divides by d; since d ≥ 1 these agree on every extended real, because a
  quotient by a nonzero d is the product with d⁻¹. They also differ in where the bias is added,
  (A + B) + b against (A + b) + B, and in how a bias vector becomes a row (a recast against a broadcast).
-/
import proofs.«151676_j36928128811710_1_alg».proof.Proof.Gen.ReferenceIdeal
import proofs.«151676_j36928128811710_1_alg».proof.Proof.Gen.KernelIdeal
import proofs.«151676_j36928128811710_1_alg».proof.Proof.LibCastBcast
import proofs.«151676_j36928128811710_1_alg».proof.Proof.LibDot
import proofs.«151676_j36928128811710_1_alg».proof.Proof.Spec
import Idealize.ShloMosaic.Lib.Pipeline.Value
import Idealize.ShloMosaic.Lib.ValueIdx
import Idealize.ShloMosaic.PureOps.Ideal.Laws

noncomputable section

open scoped BigOperators

namespace Cert.HostTerms

open Idealize.ShloMosaic Idealize.ShloMosaic.ValueIdx Cert.ReferenceIdeal Cert.ReferenceIdeal.Gen Cert.Spec

abbrev Edges : Type := (⟨S2x1600000, .i32⟩ : BufTy).Contents (Elt Ideal)

/-! ## The shared chains -/

/-- The edges' source nodes and destination nodes. -/
def src (e : Edges) : (⟨S1600000, .i32⟩ : BufTy).Contents (Elt Ideal) :=
  shapeCast _ (extractStridedSlice S1x1600000 ![0, 0] e slices_S2x1600000_S1x1600000_0_0) shapeCasts_S1x1600000_S1600000
def dst (e : Edges) : (⟨S1600000, .i32⟩ : BufTy).Contents (Elt Ideal) :=
  shapeCast _ (extractStridedSlice S1x1600000 ![1, 0] e slices_S2x1600000_S1x1600000_1_0) shapeCasts_S1x1600000_S1600000

/-- The gather's index column (a negative source index counted from the end) and the scatter's. -/
def srcIdx (e : Edges) : (⟨S1600000x1, .i32⟩ : BufTy).Contents (Elt Ideal) :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))
def dstIdx (e : Edges) : (⟨S1600000x1, .i32⟩ : BufTy).Contents (Elt Ideal) :=
  broadcastInDim S1600000x1 ![0] bcast_S1600000_S1600000x1_0 (dst e)

/-- Each node's sum of its incoming edges' source rows. -/
def aggr (x : FVec Ideal S100000x128 .f32) (e : Edges) : FVec Ideal S100000x128 .f32 :=
  Host.scatterAdd scatter_S100000x128_S1600000x1_S1600000x128_1_0_0_1
    (broadcastInDim S100000x128 ![] bcast_S_S100000x128 (constant S_ .f32 0x00000000#32)) (dstIdx e)
    (Host.gather gather_S100000x128_S1600000x1_S1600000x128_1_0_n_n_0_1_1128 x (srcIdx e))

/-- The vector of ones. -/
def ones : FVec Ideal S100000 .f32 := broadcastInDim S100000 ![] bcast_S_S100000 (constant S_ .f32 0x3F800000#32)

/-- Each node's number of incoming edges, floored at one. -/
def degm (e : Edges) : FVec Ideal S100000 .f32 :=
  maximumf (Host.scatterAdd scatter_S100000_S1600000x1_S1600000_n_0_0_1
      (broadcastInDim S100000 ![] bcast_S_S100000 (constant S_ .f32 0x00000000#32)) (dstIdx e)
      (broadcastInDim S1600000 ![] bcast_S_S1600000 (constant S_ .f32 0x3F800000#32))) ones

/-- A per-node vector spread over the 128 channels, through a column. -/
def spread (col : FVec Ideal S100000x1 .f32) : FVec Ideal S100000x128 .f32 :=
  broadcastInDim S100000x128 ![0, 1] bcast_S100000x1_S100000x128_0_1 col

/-- The mean, dividing by the count. -/
def meanDiv (x : FVec Ideal S100000x128 .f32) (e : Edges) : FVec Ideal S100000x128 .f32 :=
  Host.divf (aggr x e) (spread (broadcastInDim S100000x1 ![0] bcast_S100000_S100000x1_0 (degm e)))

/-- The mean, multiplying by the count's reciprocal. -/
def meanMul (x : FVec Ideal S100000x128 .f32) (e : Edges) : FVec Ideal S100000x128 .f32 :=
  mulf (aggr x e) (spread (shapeCast S100000x1 (Host.divf ones (degm e)) Cert.KernelIdeal.Gen.shapeCasts_S100000_S100000x1))

/-! ## Reading the small pieces at an entry -/

theorem one_word : Ideal.ofBits .f32 0x3F800000#32 = 1 := by
  simp [Ideal.ofBits, Ideal.ieee, -EReal.coe_mul]; norm_num

theorem ones_at (j : S100000.Idx) : ones j = 1 :=
  (broadcastInDim_apply _ bcast_S_S100000 _ j ix0 (fun a => a.elim0)).trans one_word

theorem one_le_degm (e : Edges) (j : S100000.Idx) : 1 ≤ degm e j := by
  unfold degm
  rw [maximumf_apply, ones_at]
  exact le_max_right _ _

theorem spread_bcast_at (v : FVec Ideal S100000 .f32) (r : Fin 100000) (q : Fin 128) :
    spread (broadcastInDim S100000x1 ![0] bcast_S100000_S100000x1_0 v) (ix2 r q) = v (ix1 r) := by
  unfold spread
  refine (broadcastInDim_apply _ bcast_S100000x1_S100000x128_0_1 _ (ix2 r q) (ix2 r (0 : Fin 1)) fun a => ?_).trans
    (broadcastInDim_apply _ bcast_S100000_S100000x1_0 v (ix2 r (0 : Fin 1)) (ix1 r) fun a => ?_)
  · match a with
    | ⟨0, _⟩ => rfl
    | ⟨1, _⟩ => rfl
  · match a with
    | ⟨0, _⟩ => rfl

/-- The quotient by a d ≥ 1 is the product with the reciprocal 1 / d. -/
theorem mul_div_one (a d : EReal) (hd : 1 ≤ d) : a * Ideal.div 1 d = Ideal.div a d := by
  have h0 : d ≠ 0 := fun h => by rw [h] at hd; exact absurd hd (by norm_num)
  unfold Ideal.div
  rw [if_neg h0, if_neg h0, one_mul]

/-- The host's quotient of two arrays, at an entry. -/
theorem hostDivf_at {s : Shape} {φ : FTy} (a b : FVec Ideal s φ) (i : s.Idx) : Host.divf a b i = Ideal.div (a i) (b i) := rfl

/-- The two spellings of the mean agree. -/
theorem mean_eq (x : FVec Ideal S100000x128 .f32) (e : Edges) : meanMul x e = meanDiv x e := by
  funext i
  obtain ⟨r, q, rfl⟩ : ∃ (r : Fin 100000) (q : Fin 128), i = ix2 r q := ⟨i 0, i 1, eq_ix2 i⟩
  unfold meanMul meanDiv
  rw [Cert.LibCastBcast.column_cast_eq_bcast _ _ bcast_S100000_S100000x1_0, mulf_apply, hostDivf_at, spread_bcast_at,
    spread_bcast_at, hostDivf_at, ones_at]
  exact mul_div_one _ _ (one_le_degm e _)

/-! ## A bias vector as a row, and a row spread over the nodes -/

theorem row128_eq (b : FVec Ideal S128 .f32) :
    shapeCast S1x128 b Cert.KernelIdeal.Gen.shapeCasts_S128_S1x128 = broadcastInDim S1x128 ![1] bcast_S128_S1x128_1 b :=
  Cert.LibCastBcast.row_cast_eq_bcast b _ _

theorem row256_eq (b : FVec Ideal S256 .f32) :
    shapeCast S1x256 b Cert.KernelIdeal.Gen.shapeCasts_S256_S1x256 = broadcastInDim S1x256 ![1] bcast_S256_S1x256_1 b :=
  Cert.LibCastBcast.row_cast_eq_bcast b _ _

theorem row1_eq (b : FVec Ideal S1 .f32) :
    shapeCast S1x1 b Cert.KernelIdeal.Gen.shapeCasts_S1_S1x1 = broadcastInDim S1x1 ![1] bcast_S1_S1x1_1 b :=
  Cert.LibCastBcast.row_cast_eq_bcast b _ _

/-- A `[1, b]` row spread down `a` rows reads, at (r, q), the row's entry q. -/
theorem rows_at {a b : ℕ} (row : (⟨2, ![1, b]⟩ : Shape).Idx → EReal)
    (h : (⟨2, ![1, b]⟩ : Shape).BroadcastsInDim (⟨2, ![a, b]⟩ : Shape) ![0, 1]) (r : Fin a) (q : Fin b) :
    broadcastInDim (⟨2, ![a, b]⟩ : Shape) ![0, 1] h row (ix2 r q) = row (ix2 (0 : Fin 1) q) := by
  refine broadcastInDim_apply _ h row (ix2 r q) (ix2 (0 : Fin 1) q) fun ax => ?_
  match ax with
  | ⟨0, _⟩ => rfl
  | ⟨1, _⟩ =>
    show q.val = if b = 1 then 0 else q.val
    split
    · have := q.isLt; omega
    · rfl

theorem zeros_at {s : Shape} (h : S_.BroadcastsInDim s (![] : Fin 0 → Fin s.rank)) (j : s.Idx) :
    broadcastInDim s ![] h (constant (F := Ideal) S_ .f32 0x00000000#32) j = 0 :=
  (broadcastInDim_apply _ h _ j ix0 (fun a => a.elim0)).trans Ideal.ofBits_zero_f32

/-! ## The reference's spelling of a layer, of the maximum with zero and of the head -/

def layerR (a x : FVec Ideal S100000x128 .f32) (wl : FVec Ideal S128x128 .f32) (b : FVec Ideal S128 .f32)
    (wr : FVec Ideal S128x128 .f32) : FVec Ideal S100000x128 .f32 :=
  addf (addf (Host.dotGeneral dot_S100000x128_S128x128_S100000x128_1_0_0_1_n_n none a wl)
      (broadcastInDim S100000x128 ![0, 1] bcast_S1x128_S100000x128_0_1 (broadcastInDim S1x128 ![1] bcast_S128_S1x128_1 b)))
    (Host.dotGeneral dot_S100000x128_S128x128_S100000x128_1_0_0_1_n_n none x wr)

def reluR (y : FVec Ideal S100000x128 .f32) : FVec Ideal S100000x128 .f32 :=
  maximumf y (broadcastInDim S100000x128 ![] bcast_S_S100000x128 (constant S_ .f32 0x00000000#32))

def headR (h : FVec Ideal S100000x128 .f32) (w1 : FVec Ideal S128x256 .f32) (b1 : FVec Ideal S256 .f32)
    (w2 : FVec Ideal S256x1 .f32) (b2 : FVec Ideal S1 .f32) : FVec Ideal S100000x1 .f32 :=
  addf (Host.dotGeneral dot_S100000x256_S256x1_S100000x1_1_0_0_1_n_n none
      (maximumf (addf (Host.dotGeneral dot_S100000x128_S128x256_S100000x256_1_0_0_1_n_n none h w1)
          (broadcastInDim S100000x256 ![0, 1] bcast_S1x256_S100000x256_0_1 (broadcastInDim S1x256 ![1] bcast_S256_S1x256_1 b1)))
        (broadcastInDim S100000x256 ![] bcast_S_S100000x256 (constant S_ .f32 0x00000000#32))) w2)
    (broadcastInDim S100000x1 ![0, 1] bcast_S1x1_S100000x1_0_1 (broadcastInDim S1x1 ![1] bcast_S1_S1x1_1 b2))

/-- The reference's layer is the specification's: the same two products, the bias added in the middle or last. -/
theorem layerR_eq (a x : FVec Ideal S100000x128 .f32) (wl : FVec Ideal S128x128 .f32) (b : FVec Ideal S128 .f32)
    (wr : FVec Ideal S128x128 .f32) :
    layerR a x wl b wr = layer a x wl (broadcastInDim S1x128 ![1] bcast_S128_S1x128_1 b) wr := by
  funext i
  obtain ⟨r, q, rfl⟩ : ∃ (r : Fin 100000) (q : Fin 128), i = ix2 r q := ⟨i 0, i 1, eq_ix2 i⟩
  unfold layerR
  simp only [Host.dotGeneral]
  rw [addf_apply, addf_apply, Cert.LibDot.dotGeneral_at _ rfl rfl rfl rfl rfl rfl,
    Cert.LibDot.dotGeneral_at _ rfl rfl rfl rfl rfl rfl, rows_at, layer_at]
  exact add_right_comm _ _ _

theorem reluR_eq (y : FVec Ideal S100000x128 .f32) : reluR y = relu y := by
  funext i
  unfold reluR
  rw [maximumf_apply, zeros_at, relu_at]

/-- The reference's head is the specification's. -/
theorem headR_eq (h : FVec Ideal S100000x128 .f32) (w1 : FVec Ideal S128x256 .f32) (b1 : FVec Ideal S256 .f32)
    (w2 : FVec Ideal S256x1 .f32) (b2 : FVec Ideal S1 .f32) :
    headR h w1 b1 w2 b2 = head h w1 (broadcastInDim S1x256 ![1] bcast_S256_S1x256_1 b1) w2
      (broadcastInDim S1x1 ![1] bcast_S1_S1x1_1 b2) := by
  funext i
  obtain ⟨r, q, rfl⟩ : ∃ (r : Fin 100000) (q : Fin 1), i = ix2 r q := ⟨i 0, i 1, eq_ix2 i⟩
  unfold headR
  simp only [Host.dotGeneral]
  rw [addf_apply, Cert.LibDot.dotGeneral_at _ rfl rfl rfl rfl rfl rfl, rows_at, head_at]
  refine congrArg (· + _) (Finset.sum_congr rfl fun j _ => ?_)
  rw [maximumf_apply, addf_apply, zeros_at, Cert.LibDot.dotGeneral_at _ rfl rfl rfl rfl rfl rfl, rows_at]

/-- A layer or a head whose bias row is a recast vector, in the reference's spelling. -/
theorem layer_cast_eq (a x : FVec Ideal S100000x128 .f32) (wl : FVec Ideal S128x128 .f32) (b : FVec Ideal S128 .f32)
    (wr : FVec Ideal S128x128 .f32) :
    layer a x wl (shapeCast S1x128 b Cert.KernelIdeal.Gen.shapeCasts_S128_S1x128) wr = layerR a x wl b wr := by
  rw [layerR_eq, row128_eq]

theorem head_cast_eq (h : FVec Ideal S100000x128 .f32) (w1 : FVec Ideal S128x256 .f32) (b1 : FVec Ideal S256 .f32)
    (w2 : FVec Ideal S256x1 .f32) (b2 : FVec Ideal S1 .f32) :
    head h w1 (shapeCast S1x256 b1 Cert.KernelIdeal.Gen.shapeCasts_S256_S1x256) w2
      (shapeCast S1x1 b2 Cert.KernelIdeal.Gen.shapeCasts_S1_S1x1) = headR h w1 b1 w2 b2 := by
  rw [headR_eq, row256_eq, row1_eq]

/-! ## The two results in closed form, in the reference's spelling -/

/-- The first layer's output. -/
def hiddenOf (x : FVec Ideal S100000x128 .f32) (e : Edges) (wl0 : FVec Ideal S128x128 .f32) (b0 : FVec Ideal S128 .f32)
    (wr0 : FVec Ideal S128x128 .f32) : FVec Ideal S100000x128 .f32 :=
  reluR (layerR (meanDiv x e) x wl0 b0 wr0)

/-- The second layer before its maximum with zero: the first result. -/
def embOf (x : FVec Ideal S100000x128 .f32) (e : Edges) (wl0 : FVec Ideal S128x128 .f32) (b0 : FVec Ideal S128 .f32)
    (wr0 wl1 : FVec Ideal S128x128 .f32) (b1 : FVec Ideal S128 .f32) (wr1 : FVec Ideal S128x128 .f32) :
    FVec Ideal S100000x128 .f32 :=
  layerR (meanDiv (hiddenOf x e wl0 b0 wr0) e) (hiddenOf x e wl0 b0 wr0) wl1 b1 wr1

/-- The head of the second layer's output: the second result. -/
def predOf (x : FVec Ideal S100000x128 .f32) (e : Edges) (wl0 : FVec Ideal S128x128 .f32) (b0 : FVec Ideal S128 .f32)
    (wr0 wl1 : FVec Ideal S128x128 .f32) (b1 : FVec Ideal S128 .f32) (wr1 : FVec Ideal S128x128 .f32)
    (w1 : FVec Ideal S128x256 .f32) (c1 : FVec Ideal S256 .f32) (w2 : FVec Ideal S256x1 .f32) (c2 : FVec Ideal S1 .f32) :
    FVec Ideal S100000x1 .f32 :=
  headR (reluR (embOf x e wl0 b0 wr0 wl1 b1 wr1)) w1 c1 w2 c2

end Cert.HostTerms

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.Chain.lean ====
/-
  The kernel program's two results as functions of its arguments.

  The run's buffer contents at each boundary are a fold through @main: a host stretch rewrites the buffers it
  computes, a region leaves its output arrays at the layer (or the head) of the arrays it was entered with.
  Walking the fold back from the last boundary to the launch memory gives each result in closed form.
-/
import proofs.«151676_j36928128811710_1_alg».proof.Proof.Gen.KernelIdeal.Frame
import proofs.«151676_j36928128811710_1_alg».proof.Proof.Reg0
import proofs.«151676_j36928128811710_1_alg».proof.Proof.Reg1
import proofs.«151676_j36928128811710_1_alg».proof.Proof.Reg2
import proofs.«151676_j36928128811710_1_alg».proof.Proof.HostTerms
import proofs.«151676_j36928128811710_1_alg».proof.Proof.LibKeepAll

set_option maxRecDepth 16384

noncomputable section

namespace Cert.Chain

open Idealize.ShloMosaic Idealize.ShloMosaic.TcCoe Idealize.SL.Sem Idealize.ShloMosaic.StableHlo
open Cert.KernelIdeal Cert.KernelIdeal.Gen Cert.Spec Cert.HostTerms Cert.LibKeepAll

variable (m : (ℓ : Loc nD τ sig) → Buf (Elt Ideal) ℓ) (ρ : Dev nD → PrngReg) (c : Dev nD)

/-! ## After the first host stretch -/

theorem W1_v24 : W1 m ρ c (Proc.devRef .tc main_v24)
    = meanMul (m ((c : Thread nD τ).loc main_arg0)) (m ((c : Thread nD τ).loc main_arg1)) := by
  show StableHlo.after hostOps0 (W0 m ρ c) (Proc.devRef .tc main_v24) = _
  after_results_simp
  rfl

theorem W1_v25 : W1 m ρ c (Proc.devRef .tc main_v25)
    = shapeCast S1x128 (m ((c : Thread nD τ).loc main_arg3)) shapeCasts_S128_S1x128 := by
  show StableHlo.after hostOps0 (W0 m ρ c) (Proc.devRef .tc main_v25) = _
  after_results_simp
  rfl

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  kept_all hostOps0

theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2)
  kept_all hostOps0

theorem W1_arg4 : W1 m ρ c (Proc.devRef .tc main_arg4) = m ((c : Thread nD τ).loc main_arg4) := by
  show StableHlo.after hostOps0 (W0 m ρ c) (Proc.devRef .tc main_arg4) = W0 m ρ c (Proc.devRef .tc main_arg4)
  kept_all hostOps0

theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5)
  kept_all hostOps0

theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6)
  kept_all hostOps0

theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7)
  kept_all hostOps0

theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8)
  kept_all hostOps0

theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9)
  kept_all hostOps0

theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10)
  kept_all hostOps0

theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11)
  kept_all hostOps0

/-- The edges' source and destination nodes and the reciprocal counts, which the second host stretch reads again. -/
theorem W1_v1 : W1 m ρ c (Proc.devRef .tc main_v1) = src (m ((c : Thread nD τ).loc main_arg1)) := by
  show StableHlo.after hostOps0 (W0 m ρ c) (Proc.devRef .tc main_v1) = _
  after_results_simp
  rfl

theorem W1_v3 : W1 m ρ c (Proc.devRef .tc main_v3) = dst (m ((c : Thread nD τ).loc main_arg1)) := by
  show StableHlo.after hostOps0 (W0 m ρ c) (Proc.devRef .tc main_v3) = _
  after_results_simp
  rfl

theorem W1_v12 : W1 m ρ c (Proc.devRef .tc main_v12)
    = shapeCast S100000x1 (Host.divf ones (degm (m ((c : Thread nD τ).loc main_arg1)))) shapeCasts_S100000_S100000x1 := by
  show StableHlo.after hostOps0 (W0 m ρ c) (Proc.devRef .tc main_v12) = _
  after_results_simp
  rfl

/-! ## After the first region -/

/-- The first layer's output. -/
def h0 : Nodes128 :=
  relu (layer (meanMul (m ((c : Thread nD τ).loc main_arg0)) (m ((c : Thread nD τ).loc main_arg1))) (m ((c : Thread nD τ).loc main_arg0)) (m ((c : Thread nD τ).loc main_arg2))
    (shapeCast S1x128 (m ((c : Thread nD τ).loc main_arg3)) shapeCasts_S128_S1x128) (m ((c : Thread nD τ).loc main_arg4)))

theorem W2_v26 : W2 m ρ c (Proc.devRef .tc main_v26) = h0 m c := by
  refine (W2_arr m ρ c 5).trans ((Cert.Reg0.final (V1 m ρ) c).trans ?_)
  unfold Cert.Reg0.G h0
  show relu (layer (W1 m ρ c (Proc.devRef .tc main_v24)) (W1 m ρ c (Proc.devRef .tc main_arg0)) (W1 m ρ c (Proc.devRef .tc main_arg2))
    (W1 m ρ c (Proc.devRef .tc main_v25)) (W1 m ρ c (Proc.devRef .tc main_arg4))) = _
  rw [W1_v24, W1_arg0, W1_arg2, W1_v25, W1_arg4]

theorem W2_v1 : W2 m ρ c (Proc.devRef .tc main_v1) = src (m ((c : Thread nD τ).loc main_arg1)) :=
  (W2_of_ne m ρ c main_v1 (by decide)).trans (W1_v1 m ρ c)
theorem W2_v3 : W2 m ρ c (Proc.devRef .tc main_v3) = dst (m ((c : Thread nD τ).loc main_arg1)) :=
  (W2_of_ne m ρ c main_v3 (by decide)).trans (W1_v3 m ρ c)
theorem W2_v12 : W2 m ρ c (Proc.devRef .tc main_v12)
    = shapeCast S100000x1 (Host.divf ones (degm (m ((c : Thread nD τ).loc main_arg1)))) shapeCasts_S100000_S100000x1 :=
  (W2_of_ne m ρ c main_v12 (by decide)).trans (W1_v12 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)

/-! ## After the second host stretch -/

theorem W3_v38 : W3 m ρ c (Proc.devRef .tc main_v38) = meanMul (h0 m c) (m ((c : Thread nD τ).loc main_arg1)) := by
  show StableHlo.after hostOps1 (W2 m ρ c) (Proc.devRef .tc main_v38) = _
  after_results_simp
  rw [W2_v1, W2_v3, W2_v12, W2_v26]
  rfl

theorem W3_v39 : W3 m ρ c (Proc.devRef .tc main_v39) = shapeCast S1x128 (m ((c : Thread nD τ).loc main_arg6)) shapeCasts_S128_S1x128 := by
  show StableHlo.after hostOps1 (W2 m ρ c) (Proc.devRef .tc main_v39) = _
  after_results_simp
  rw [W2_arg6]
  rfl

theorem W3_v26 : W3 m ρ c (Proc.devRef .tc main_v26) = h0 m c := by
  refine Eq.trans ?_ (W2_v26 m ρ c)
  show StableHlo.after hostOps1 (W2 m ρ c) (Proc.devRef .tc main_v26) = W2 m ρ c (Proc.devRef .tc main_v26)
  kept_all hostOps1

theorem W3_arg5 : W3 m ρ c (Proc.devRef .tc main_arg5) = m ((c : Thread nD τ).loc main_arg5) := by
  refine Eq.trans ?_ (W2_arg5 m ρ c)
  show StableHlo.after hostOps1 (W2 m ρ c) (Proc.devRef .tc main_arg5) = W2 m ρ c (Proc.devRef .tc main_arg5)
  kept_all hostOps1
theorem W3_arg7 : W3 m ρ c (Proc.devRef .tc main_arg7) = m ((c : Thread nD τ).loc main_arg7) := by
  refine Eq.trans ?_ (W2_arg7 m ρ c)
  show StableHlo.after hostOps1 (W2 m ρ c) (Proc.devRef .tc main_arg7) = W2 m ρ c (Proc.devRef .tc main_arg7)
  kept_all hostOps1
theorem W3_arg8 : W3 m ρ c (Proc.devRef .tc main_arg8) = m ((c : Thread nD τ).loc main_arg8) := by
  refine Eq.trans ?_ (W2_arg8 m ρ c)
  show StableHlo.after hostOps1 (W2 m ρ c) (Proc.devRef .tc main_arg8) = W2 m ρ c (Proc.devRef .tc main_arg8)
  kept_all hostOps1
theorem W3_arg9 : W3 m ρ c (Proc.devRef .tc main_arg9) = m ((c : Thread nD τ).loc main_arg9) := by
  refine Eq.trans ?_ (W2_arg9 m ρ c)
  show StableHlo.after hostOps1 (W2 m ρ c) (Proc.devRef .tc main_arg9) = W2 m ρ c (Proc.devRef .tc main_arg9)
  kept_all hostOps1
theorem W3_arg10 : W3 m ρ c (Proc.devRef .tc main_arg10) = m ((c : Thread nD τ).loc main_arg10) := by
  refine Eq.trans ?_ (W2_arg10 m ρ c)
  show StableHlo.after hostOps1 (W2 m ρ c) (Proc.devRef .tc main_arg10) = W2 m ρ c (Proc.devRef .tc main_arg10)
  kept_all hostOps1
theorem W3_arg11 : W3 m ρ c (Proc.devRef .tc main_arg11) = m ((c : Thread nD τ).loc main_arg11) := by
  refine Eq.trans ?_ (W2_arg11 m ρ c)
  show StableHlo.after hostOps1 (W2 m ρ c) (Proc.devRef .tc main_arg11) = W2 m ρ c (Proc.devRef .tc main_arg11)
  kept_all hostOps1

/-! ## After the second region -/

/-- The second layer before its maximum with zero: the program's first result. -/
def emb : Nodes128 :=
  layer (meanMul (h0 m c) (m ((c : Thread nD τ).loc main_arg1))) (h0 m c) (m ((c : Thread nD τ).loc main_arg5)) (shapeCast S1x128 (m ((c : Thread nD τ).loc main_arg6)) shapeCasts_S128_S1x128) (m ((c : Thread nD τ).loc main_arg7))

theorem G1_eq : Cert.Reg1.G (V3 m ρ) c = emb m c := by
  unfold Cert.Reg1.G emb
  show layer (W3 m ρ c (Proc.devRef .tc main_v38)) (W3 m ρ c (Proc.devRef .tc main_v26)) (W3 m ρ c (Proc.devRef .tc main_arg5))
    (W3 m ρ c (Proc.devRef .tc main_v39)) (W3 m ρ c (Proc.devRef .tc main_arg7)) = _
  rw [W3_v38, W3_v26, W3_arg5, W3_v39, W3_arg7]

theorem W4_v40_0 : W4 m ρ c (Proc.devRef .tc main_v40_0) = emb m c :=
  (W4_arr m ρ c 5).trans ((Cert.Reg1.final5 (V3 m ρ) c).trans (G1_eq m ρ c))

theorem W4_v40_1 : W4 m ρ c (Proc.devRef .tc main_v40_1) = relu (emb m c) :=
  (W4_arr m ρ c 6).trans ((Cert.Reg1.final6 (V3 m ρ) c).trans (congrArg relu (G1_eq m ρ c)))

theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)

/-! ## After the third host stretch -/

theorem W5_v41 : W5 m ρ c (Proc.devRef .tc main_v41) = shapeCast S1x256 (m ((c : Thread nD τ).loc main_arg9)) shapeCasts_S256_S1x256 := by
  show StableHlo.after hostOps2 (W4 m ρ c) (Proc.devRef .tc main_v41) = _
  after_results_simp
  rw [W4_arg9]
  rfl

theorem W5_v42 : W5 m ρ c (Proc.devRef .tc main_v42) = shapeCast S1x1 (m ((c : Thread nD τ).loc main_arg11)) shapeCasts_S1_S1x1 := by
  show StableHlo.after hostOps2 (W4 m ρ c) (Proc.devRef .tc main_v42) = _
  after_results_simp
  rw [W4_arg11]
  rfl

theorem W5_v40_0 : W5 m ρ c (Proc.devRef .tc main_v40_0) = emb m c := by
  refine Eq.trans ?_ (W4_v40_0 m ρ c)
  show StableHlo.after hostOps2 (W4 m ρ c) (Proc.devRef .tc main_v40_0) = W4 m ρ c (Proc.devRef .tc main_v40_0)
  kept_all hostOps2
theorem W5_v40_1 : W5 m ρ c (Proc.devRef .tc main_v40_1) = relu (emb m c) := by
  refine Eq.trans ?_ (W4_v40_1 m ρ c)
  show StableHlo.after hostOps2 (W4 m ρ c) (Proc.devRef .tc main_v40_1) = W4 m ρ c (Proc.devRef .tc main_v40_1)
  kept_all hostOps2
theorem W5_arg8 : W5 m ρ c (Proc.devRef .tc main_arg8) = m ((c : Thread nD τ).loc main_arg8) := by
  refine Eq.trans ?_ (W4_arg8 m ρ c)
  show StableHlo.after hostOps2 (W4 m ρ c) (Proc.devRef .tc main_arg8) = W4 m ρ c (Proc.devRef .tc main_arg8)
  kept_all hostOps2
theorem W5_arg10 : W5 m ρ c (Proc.devRef .tc main_arg10) = m ((c : Thread nD τ).loc main_arg10) := by
  refine Eq.trans ?_ (W4_arg10 m ρ c)
  show StableHlo.after hostOps2 (W4 m ρ c) (Proc.devRef .tc main_arg10) = W4 m ρ c (Proc.devRef .tc main_arg10)
  kept_all hostOps2

/-! ## After the third region: the two results -/

/-- The head of the second layer's output: the program's second result. -/
def pred : Nodes1 :=
  head (relu (emb m c)) (m ((c : Thread nD τ).loc main_arg8)) (shapeCast S1x256 (m ((c : Thread nD τ).loc main_arg9)) shapeCasts_S256_S1x256) (m ((c : Thread nD τ).loc main_arg10))
    (shapeCast S1x1 (m ((c : Thread nD τ).loc main_arg11)) shapeCasts_S1_S1x1)

theorem W6_v43 : W6 m ρ c (Proc.devRef .tc main_v43) = pred m c := by
  refine (W6_arr m ρ c 5).trans ((Cert.Reg2.final (V5 m ρ) c).trans ?_)
  unfold Cert.Reg2.G pred
  show head (W5 m ρ c (Proc.devRef .tc main_v40_1)) (W5 m ρ c (Proc.devRef .tc main_arg8)) (W5 m ρ c (Proc.devRef .tc main_v41))
    (W5 m ρ c (Proc.devRef .tc main_arg10)) (W5 m ρ c (Proc.devRef .tc main_v42)) = _
  rw [W5_v40_1, W5_arg8, W5_v41, W5_arg10, W5_v42]

theorem W6_v40_0 : W6 m ρ c (Proc.devRef .tc main_v40_0) = emb m c :=
  (W6_of_ne m ρ c main_v40_0 (by decide)).trans (W5_v40_0 m ρ c)

/-! ## The results in the reference's spelling -/

theorem h0_eq : h0 m c = hiddenOf (m ((c : Thread nD τ).loc main_arg0)) (m ((c : Thread nD τ).loc main_arg1)) (m ((c : Thread nD τ).loc main_arg2)) (m ((c : Thread nD τ).loc main_arg3)) (m ((c : Thread nD τ).loc main_arg4)) := by
  unfold h0 hiddenOf
  rw [layer_cast_eq, mean_eq, reluR_eq]

theorem emb_eq : emb m c = embOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold emb embOf
  rw [layer_cast_eq, mean_eq, h0_eq]

theorem pred_eq : pred m c = predOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) := by
  unfold pred predOf
  rw [head_cast_eq, emb_eq, reluR_eq]

end Cert.Chain

end
-- ==== Proof.RefValue.lean ====
/-
  The reference program's two results as functions of its arguments.

  The reference's run ends with each result at the composition of its host operations; read with the named host
  terms, that composition is the second layer (before its maximum with zero) of the first layer's output, and the
  head of it.
-/
import proofs.«151676_j36928128811710_1_alg».proof.Proof.Gen.ReferenceIdeal.Run
import proofs.«151676_j36928128811710_1_alg».proof.Proof.HostTerms

set_option maxRecDepth 16384

noncomputable section

namespace Cert.RefValue

open Idealize.ShloMosaic Idealize.ShloMosaic.TcCoe Idealize.SL.Sem
open Cert.ReferenceIdeal Cert.ReferenceIdeal.Gen Cert.ReferenceIdeal.Value Cert.HostTerms

variable (m : (ℓ : Loc nD τ sig) → Buf (Elt Ideal) ℓ) (c : Dev nD)

/-- The first result: the second layer before its maximum with zero. -/
theorem res0_eq : res_main_v58 (F := Ideal) m c
    = embOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v58
  rfl

/-- The second result: the head. -/
theorem res1_eq : res_main_v68 (F := Ideal) m c
    = predOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) (m ((c.tc : Thread nD τ).loc main_arg11)) := by
  unfold res_main_v68
  rfl

end Cert.RefValue

end
-- ==== Proof.lean ====
/-
  A two-layer graph network with a small head, computed by three row-blocked kernels with gather and scatter-add
  steps between them, against the same network written as plain array operations.

  Each layer takes, per node, the mean of the incoming edges' source features (their sum over the count floored at
  one) and the node's own features, two weight matrices and a bias: mean·Wl + x·Wr + b, then a maximum with zero.
  The head is one more product, bias and maximum with zero, then a product with a weight column and a bias. The
  first result is the second layer before its maximum, the second the head of it after.

  Over the extended reals the two programs compute the same functions of their arguments:
  • the narrowing to the 16-bit format before each product is the identity, and a product of a 4000-row block with
    a whole weight matrix is the corresponding rows of the whole product, so the 25 blocks of each kernel tile the
    100000 rows of one whole-array function (Proof/Reg0, Reg1, Reg2 over Proof/Pay, Block, Spec);
  • the mean is spelt sum · (1 / d) in one program and sum / d in the other, equal since d ≥ 1 (a quotient by a
    nonzero d is the product with d⁻¹), and the bias is added last in one and in the middle in the other
    (Proof/HostTerms); the gather and scatter-add chains are the same terms on both sides and are never opened;
  • the contents of every buffer between the kernels are followed from the launch memory to the results
    (Proof/Chain), and the reference's results are read off its run (Proof/RefValue).
  The three frame claims are the programs' runs with the results dropped; nothing was rewritten by the
  idealization, so its claim is trivial.
-/
import proofs.«151676_j36928128811710_1_alg».proof.Defs
import proofs.«151676_j36928128811710_1_alg».proof.Proof.Gen.Kernel
import proofs.«151676_j36928128811710_1_alg».proof.Proof.Gen.Kernel.Skeleton
import proofs.«151676_j36928128811710_1_alg».proof.Proof.Gen.Kernel.Launch
import proofs.«151676_j36928128811710_1_alg».proof.Proof.Gen.Kernel.Points
import proofs.«151676_j36928128811710_1_alg».proof.Proof.Gen.Kernel.Frame
import proofs.«151676_j36928128811710_1_alg».proof.Proof.Gen.KernelIdeal
import proofs.«151676_j36928128811710_1_alg».proof.Proof.Gen.KernelIdeal.Skeleton
import proofs.«151676_j36928128811710_1_alg».proof.Proof.Gen.KernelIdeal.Launch
import proofs.«151676_j36928128811710_1_alg».proof.Proof.Gen.KernelIdeal.Points
import proofs.«151676_j36928128811710_1_alg».proof.Proof.Gen.KernelIdeal.Frame
import proofs.«151676_j36928128811710_1_alg».proof.Proof.Gen.ReferenceIdeal
import proofs.«151676_j36928128811710_1_alg».proof.Proof.Gen.ReferenceIdeal.Run
import proofs.«151676_j36928128811710_1_alg».proof.Proof.Gen.Pre_finite_inputs
import proofs.«151676_j36928128811710_1_alg».proof.Proof.FrameResults
import proofs.«151676_j36928128811710_1_alg».proof.Proof.Chain
import proofs.«151676_j36928128811710_1_alg».proof.Proof.RefValue
import Idealize.ShloMosaic.Adequacy
import Idealize.ShloMosaic.Init

noncomputable section

namespace Cert.Proof

open Idealize.ShloMosaic Idealize.SL.Sem

/-- The kernel program runs and leaves its arguments as launched, at the word level and over the extended reals. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the second layer before its maximum with zero, and the head of it, of the same arguments. -/
theorem algebraic : Cert.algebraic_KernelIdeal_ReferenceIdeal := by
  intro m ρ m' ρ' _ hagree
  refine ⟨fun c => Cert.Chain.emb m c, fun c => Cert.Chain.pred m c, ?_, ?_⟩
  · exact (θ_run Cert.KernelIdeal.defs _ _).mono
      (fun r h c => ⟨(h c).1.trans (Cert.Chain.W6_v40_0 m ρ c), (h c).2.1.trans (Cert.Chain.W6_v43 m ρ c), (h c).2.2⟩)
      (Cert.KernelIdeal.Results.frame_results (F := Ideal) m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨e0, e1, e2, e3, e4, e5, e6, e7, -⟩ := hagree c
      refine (Cert.RefValue.res0_eq m' c).trans (Eq.trans ?_ (Cert.Chain.emb_eq m c).symm)
      rw [e0, e1, e2, e3, e4, e5, e6, e7]
    · obtain ⟨e0, e1, e2, e3, e4, e5, e6, e7, e8, e9, e10, e11⟩ := hagree c
      refine (Cert.RefValue.res1_eq m' c).trans (Eq.trans ?_ (Cert.Chain.pred_eq m c).symm)
      rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
